-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x256 : Shape := ⟨2, ![256, 256]⟩
abbrev S128x256 : Shape := ⟨2, ![128, 256]⟩
abbrev S64x128 : Shape := ⟨2, ![64, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg4 : FVec F S256x256 .f32) (main_arg5 : FVec F S128x256 .f32) (main_arg6 : FVec F S64x128 .f32) (main_v13 : IVec S_ 1) (main_v16 : IVec S10000x256 1) : IVec S_ 1 :=
  let main_c_5 : IVec S_ 1 := constantI S_ 1 1#1
  let main_v17 : IVec S_ 1 := (fun x v => Host.reduce IntOp.andi x v reducesTo_S10000x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S10000x10000 .f32) (main_arg1 : FVec F S10000x256 .f32) (main_arg2 : FVec F S10000x10000 .f32) (main_arg3 : FVec F S10000x256 .f32) (main_arg4 : FVec F S256x256 .f32) (main_arg5 : FVec F S128x256 .f32) (main_arg6 : FVec F S64x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x256 .f32 := Host.absf main_arg3
  let main_cst_4 : FVec F S_ .f32 := constant S_ .f32 0x7F800000#32
  let main_v15 : FVec F S10000x256 .f32 := broadcastInDim S10000x256 ![] bcast_S_S10000x256 main_cst_4
  let main_v16 : IVec S10000x256 1 := cmpf .olt main_v14 main_v15
  fn_part1 (F := F) main_arg4 main_arg5 main_arg6 main_v13 main_v16
-- ==== Kernel.lean ====
abbrev S10000x10000 : Shape := ⟨2, ![10000, 10000]⟩
abbrev S10000x256 : Shape := ⟨2, ![10000, 256]⟩
abbrev S256x256 : Shape := ⟨2, ![256, 256]⟩
abbrev S128x256 : Shape := ⟨2, ![128, 256]⟩
abbrev S64x128 : Shape := ⟨2, ![64, 128]⟩
abbrev S200x10000 : Shape := ⟨2, ![200, 10000]⟩
abbrev S200x256 : Shape := ⟨2, ![200, 256]⟩
abbrev S10000x128 : Shape := ⟨2, ![10000, 128]⟩
abbrev S200x128 : Shape := ⟨2, ![200, 128]⟩
abbrev S10000x64 : Shape := ⟨2, ![10000, 64]⟩
abbrev S200x64 : Shape := ⟨2, ![200, 64]⟩

abbrev nBuf : Space → Nat
  | .hbm => 13
  | .vmem => 36
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S10000x10000, .f32⟩
  | .hbm, ⟨3, _⟩ => ⟨S10000x256, .f32⟩
  | .hbm, ⟨4, _⟩ => ⟨S256x256, .f32⟩
  | .hbm, ⟨5, _⟩ => ⟨S128x256, .f32⟩
  | .hbm, ⟨6, _⟩ => ⟨S64x128, .f32⟩
  | .hbm, ⟨7, _⟩ => ⟨S10000x256, .f32⟩
  | .hbm, ⟨8, _⟩ => ⟨S10000x128, .f32⟩
  | .hbm, ⟨9, _⟩ => ⟨S10000x64, .f32⟩
  | .hbm, ⟨10, _⟩ => ⟨S10000x256, .f32⟩
  | .hbm, ⟨11, _⟩ => ⟨S10000x128, .f32⟩
  | .hbm, ⟨12, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S256x256, .f32⟩
  | .local _ .vmem, ⟨4, _⟩ => ⟨S200x256, .f32⟩
  | .local _ .vmem, ⟨5, _⟩ => ⟨S200x256, .f32⟩
  | .local _ .vmem, ⟨6, _⟩ => ⟨S200x10000, .f32⟩
  | .local _ .vmem, ⟨7, _⟩ => ⟨S200x10000, .f32⟩
  | .local _ .vmem, ⟨8, _⟩ => ⟨S10000x256, .f32⟩
  | .local _ .vmem, ⟨9, _⟩ => ⟨S128x256, .f32⟩
  | .local _ .vmem, ⟨10, _⟩ => ⟨S200x128, .f32⟩
  | .local _ .vmem, ⟨11, _⟩ => ⟨S200x128, .f32⟩
  | .local _ .vmem, ⟨12, _⟩ => ⟨S200x10000, .f32⟩
  | .local _ .vmem, ⟨13, _⟩ => ⟨S200x10000, .f32⟩
  | .local _ .vmem, ⟨14, _⟩ => ⟨S10000x128, .f32⟩
  | .local _ .vmem, ⟨15, _⟩ => ⟨S64x128, .f32⟩
  | .local _ .vmem, ⟨16, _⟩ => ⟨S200x64, .f32⟩
  | .local _ .vmem, ⟨17, _⟩ => ⟨S200x64, .f32⟩
  | .local _ .vmem, ⟨18, _⟩ => ⟨S200x10000, .f32⟩
  | .local _ .vmem, ⟨19, _⟩ => ⟨S200x10000, .f32⟩
  | .local _ .vmem, ⟨20, _⟩ => ⟨S10000x256, .f32⟩
  | .local _ .vmem, ⟨21, _⟩ => ⟨S256x256, .f32⟩
  | .local _ .vmem, ⟨22, _⟩ => ⟨S200x256, .f32⟩
  | .local _ .vmem, ⟨23, _⟩ => ⟨S200x256, .f32⟩
  | .local _ .vmem, ⟨24, _⟩ => ⟨S200x10000, .f32⟩
  | .local _ .vmem, ⟨25, _⟩ => ⟨S200x10000, .f32⟩
  | .local _ .vmem, ⟨26, _⟩ => ⟨S10000x256, .f32⟩
  | .local _ .vmem, ⟨27, _⟩ => ⟨S128x256, .f32⟩
  | .local _ .vmem, ⟨28, _⟩ => ⟨S200x128, .f32⟩
  | .local _ .vmem, ⟨29, _⟩ => ⟨S200x128, .f32⟩
  | .local _ .vmem, ⟨30, _⟩ => ⟨S200x10000, .f32⟩
  | .local _ .vmem, ⟨31, _⟩ => ⟨S200x10000, .f32⟩
  | .local _ .vmem, ⟨32, _⟩ => ⟨S10000x128, .f32⟩
  | .local _ .vmem, ⟨33, _⟩ => ⟨S64x128, .f32⟩
  | .local _ .vmem, ⟨34, _⟩ => ⟨S200x64, .f32⟩
  | .local _ .vmem, ⟨35, _⟩ => ⟨S200x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S200x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S200x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S200x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S200x256_S200x256_0_0 : ∀ a, (![0, 0] : Fin 2 → Nat) a + S200x256.size a ≤ S200x256.size a
  h_S200x256 : 0 < S200x256.numel
  shapeCasts_S10000x256_S10000x256 : S10000x256.ShapeCasts S10000x256
  inb_S128x256_S128x256_0_0 : ∀ a, (![0, 0] : Fin 2 → Nat) a + S128x256.size a ≤ S128x256.size a
  h_S128x256 : 0 < S128x256.numel
  inb_S200x128_S200x128_0_0 : ∀ a, (![0, 0] : Fin 2 → Nat) a + S200x128.size a ≤ S200x128.size a
  h_S200x128 : 0 < S200x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S64x128_S64x128_0_0 : ∀ a, (![0, 0] : Fin 2 → Nat) a + S64x128.size a ≤ S64x128.size a
  h_S64x128 : 0 < S64x128.numel
  inb_S200x64_S200x64_0_0 : ∀ a, (![0, 0] : Fin 2 → Nat) a + S200x64.size a ≤ S200x64.size a
  h_S200x64 : 0 < S200x64.numel
  dot_S200x10000_S10000x256_S200x256_1_0_0_1_n_n_wf : DotDims.WF S200x10000 S10000x256 S200x256 [1] [0] [0] [1] [] []
  dot_S200x256_S256x256_S200x256_1_1_0_0_n_n_wf : DotDims.WF S200x256 S256x256 S200x256 [1] [1] [0] [0] [] []
  dot_S200x256_S128x256_S200x128_1_1_0_0_n_n_wf : DotDims.WF S200x256 S128x256 S200x128 [1] [1] [0] [0] [] []
  dot_S200x10000_S10000x128_S200x128_1_0_0_1_n_n_wf : DotDims.WF S200x10000 S10000x128 S200x128 [1] [0] [0] [1] [] []
  dot_S200x128_S64x128_S200x64_1_1_0_0_n_n_wf : DotDims.WF S200x128 S64x128 S200x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x128.size a ≤ S10000x128.size a
  hwx1_3 : ∀ i : grid1.Coords, EltTy.bits .f32 = 32 ∨ (Rect.block (s := S10000x128) S200x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x64.size a ≤ S10000x64.size a
  hwx2_3 : ∀ i : grid2.Coords, EltTy.bits .f32 = 32 ∨ (Rect.block (s := S10000x64) S200x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .f32 = 32 ∨ (Rect.block (s := S10000x256) S10000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S200x256.size a ≤ S10000x256.size a
  hwx3_3 : ∀ i : grid3.Coords, EltTy.bits .f32 = 32 ∨ (Rect.block (s := S10000x256) S200x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x10000.size a ≤ S10000x10000.size a
  hwx4_0 : ∀ i : grid4.Coords, EltTy.bits .f32 = 32 ∨ (Rect.block (s := S10000x10000) S200x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .f32 = 32 ∨ (Rect.block (s := S10000x256) S10000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x256.size a ≤ S128x256.size a
  hwx4_2 : ∀ i : grid4.Coords, EltTy.bits .f32 = 32 ∨ (Rect.block (s := S128x256) S128x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S200x128.size a ≤ S10000x128.size a
  hwx4_3 : ∀ i : grid4.Coords, EltTy.bits .f32 = 32 ∨ (Rect.block (s := S10000x128) S200x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x10000.size a ≤ S10000x10000.size a
  hwx5_0 : ∀ i : grid5.Coords, EltTy.bits .f32 = 32 ∨ (Rect.block (s := S10000x10000) S200x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S10000x128.size a
  hwx5_1 : ∀ i : grid5.Coords, EltTy.bits .f32 = 32 ∨ (Rect.block (s := S10000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S200x64.size a ≤ S10000x64.size a
  hwx5_3 : ∀ i : grid5.Coords, EltTy.bits .f32 = 32 ∨ (Rect.block (s := S10000x64) S200x64.size (cc5_transform_3 i) (hinb5_3 i)).WholeWords (EltTy.packing .f32)

variable [Facts₀]

def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_1_0_0_n_n : DotDims S200x256 S256x256 S200x256 where
  lhsContracting := [1]
  rhsContracting := [1]
  lhsNonContracting := [0]
  rhsNonContracting := [0]
  lhsBatch := []
  rhsBatch := []
  wf := dot_S200x256_S256x256_S200x256_1_1_0_0_n_n_wf
def dot_S200x256_S128x256_S200x128_1_1_0_0_n_n : DotDims S200x256 S128x256 S200x128 where
  lhsContracting := [1]
  rhsContracting := [1]
  lhsNonContracting := [0]
  rhsNonContracting := [0]
  lhsBatch := []
  rhsBatch := []
  wf := dot_S200x256_S128x256_S200x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S64x128_S200x64_1_1_0_0_n_n : DotDims S200x128 S64x128 S200x64 where
  lhsContracting := [1]
  rhsContracting := [1]
  lhsNonContracting := [0]
  rhsNonContracting := [0]
  lhsBatch := []
  rhsBatch := []
  wf := dot_S200x128_S64x128_S200x64_1_1_0_0_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S200x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S200x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S200x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S200x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S128x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S200x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg2) S200x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S10000x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg6) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S200x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x256 : Shape := ⟨2, ![256, 256]⟩
abbrev S128x256 : Shape := ⟨2, ![128, 256]⟩
abbrev S64x128 : Shape := ⟨2, ![64, 128]⟩
abbrev S_ : Shape := ⟨0, ![]⟩
abbrev S256x128 : Shape := ⟨2, ![256, 128]⟩
abbrev S10000x128 : Shape := ⟨2, ![10000, 128]⟩
abbrev S128x64 : Shape := ⟨2, ![128, 64]⟩
abbrev S10000x64 : Shape := ⟨2, ![10000, 64]⟩

abbrev nBuf : Space → Nat
  | .hbm => 37
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S10000x10000, .f32⟩
  | .hbm, ⟨3, _⟩ => ⟨S10000x256, .f32⟩
  | .hbm, ⟨4, _⟩ => ⟨S256x256, .f32⟩
  | .hbm, ⟨5, _⟩ => ⟨S128x256, .f32⟩
  | .hbm, ⟨6, _⟩ => ⟨S64x128, .f32⟩
  | .hbm, ⟨7, _⟩ => ⟨S10000x256, .f32⟩
  | .hbm, ⟨8, _⟩ => ⟨S256x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | .hbm, ⟨13, _⟩ => ⟨S10000x256, .f32⟩
  | .hbm, ⟨14, _⟩ => ⟨S256x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S128x64, .f32⟩
  | .hbm, ⟨21, _⟩ => ⟨S10000x64, .f32⟩
  | .hbm, ⟨22, _⟩ => ⟨S10000x256, .f32⟩
  | .hbm, ⟨23, _⟩ => ⟨S256x256, .f32⟩
  | .hbm, ⟨24, _⟩ => ⟨S10000x256, .f32⟩
  | .hbm, ⟨25, _⟩ => ⟨S_, .f32⟩
  | .hbm, ⟨26, _⟩ => ⟨S10000x256, .f32⟩
  | .hbm, ⟨27, _⟩ => ⟨S10000x256, .f32⟩
  | .hbm, ⟨28, _⟩ => ⟨S10000x256, .f32⟩
  | .hbm, ⟨29, _⟩ => ⟨S256x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S128x64, .f32⟩
  | .hbm, ⟨36, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_cst : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call3_cst : Ref sig .tc := ⟨.hbm, 31, rfl⟩
abbrev main_call3_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  transposes_S256x256_S256x256_1_0 : S256x256.Transposes [1, 0] S256x256
  bcast_S_S10000x256 : S_.BroadcastsInDim S10000x256 (![] : Fin 0 → Fin S10000x256.rank)
  transposes_S128x256_S256x128_1_0 : S128x256.Transposes [1, 0] S256x128
  bcast_S_S10000x128 : S_.BroadcastsInDim S10000x128 (![] : Fin 0 → Fin S10000x128.rank)
  transposes_S64x128_S128x64_1_0 : S64x128.Transposes [1, 0] S128x64
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.LibRowsDot.lean ====
import Idealize.ShloMosaic.PureOps.Ideal.Laws
import Idealize.ShloMosaic.Lib.ValueIdx
import Idealize.ShloMosaic.PureOps.Dims

/-!
  A matrix product against the rows of the right operand: a left operand of shape [M, K] contracted on its axis 1
  against a right operand of shape [N, K] contracted on ITS axis 1 (the right operand is used transposed), with no
  batch axes, gives a result of shape [M, N] whose entry (p, q) is the sum over k < K of l(p, k) · r(q, k). The
  dimension record is a variable and its six lists are hypotheses, so the lemmas apply to every record of this shape.
-/

open scoped BigOperators

namespace Cert.Lib.RowsDot

open Idealize.ShloMosaic Idealize.ShloMosaic.ValueIdx

variable {M K N : Nat} (d : DotDims ⟨2, ![M, K]⟩ ⟨2, ![N, K]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 0, the result index's column. -/
theorem rhsIdx_zero_val (hln : d.lhsNonContracting = [0]) (hrn : d.rhsNonContracting = [0])
    (hlb : d.lhsBatch = []) (hrb : d.rhsBatch = [])
    (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a product against the right operand's rows at entry (p, q), re-indexed by the one
    contraction coordinate, is the sum over k < K of l(p, k) · r(q, k). -/
theorem sum_eq (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (p : Fin M) (q : Fin N) :
    (∑ k : d.contr.Idx, l (d.lhsIdx (ix2 p q) k) * r (d.rhsIdx (ix2 p q) k)) = ∑ k : Fin K, l (ix2 p k) * r (ix2 q k) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 q i := by
    funext a
    match a with
    | ⟨0, _⟩ => exact Fin.ext (rhsIdx_zero_val d hln hrn hlb hrb _ _)
    | ⟨1, _⟩ => exact Fin.ext ((d.rhsIdx_val_of_single hrc _ _).trans (contrEquiv1_symm_val d K hr hs i))
  show l _ * r _ = _
  rw [hL, hR]

/-- A product against the right operand's rows, accumulated into the zero splat and read at entry (p, q) at the ideal
    values, is the sum over k < K of l(p, k) · r(q, k). -/
theorem matmul_zero_apply {φ₁ φ₂ : FTy} (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (l : FVec Ideal ⟨2, ![M, K]⟩ φ₁) (r : FVec Ideal ⟨2, ![N, K]⟩ φ₂) (p : Fin M) (q : Fin N) :
    FloatOps.matmul d prec l r (constant (F := Ideal) ⟨2, ![M, N]⟩ .f32 0x00000000#32) (ix2 p q)
      = ∑ k : Fin K, l (ix2 p k) * r (ix2 q k) :=
  (Ideal.matmul_constant_zero_apply d prec l r (ix2 p q)).trans (sum_eq d hlc hrc hln hrn hlb hrb l r p q)

end Cert.Lib.RowsDot
-- ==== Proof.Spec.lean ====
import proofs.«161689_j34187939676601_1_alg».proof.Proof.LibPlainDot
import proofs.«161689_j34187939676601_1_alg».proof.Proof.LibRowsDot
import Idealize.ShloMosaic.PureOps.Ideal.Laws
import Idealize.ShloMosaic.Lib.ValueIdx

/-!
  One graph-convolution layer as a function of whole arrays, entry by entry. With A the n×n adjacency, H the n×dᵢ
  features and W the dₒ×dᵢ weights (stored output-major, used transposed), the layer's pre-activation at (p, q) is
      Σ_{c < dᵢ} (Σ_{k < n} A(p,k) · H(k,c)) · W(q,c),
  that is ((A·H)·Wᵀ)(p, q) with the products taken in this order; the activation is the maximum with zero or nothing.
  The sums are over the extended reals; no rearrangement of them is used anywhere, so nothing needs finiteness.
-/

open scoped BigOperators

noncomputable section

namespace Cert.Gcn

open Idealize.ShloMosaic Idealize.ShloMosaic.ValueIdx

/-- The float zero the activation compares with, kept as its word (the same word on both programs' sides). -/
abbrev zeroWord : EReal := Ideal.ofBits .f32 0x00000000#32

/-- The activation: the maximum with zero (`relu = true`) or the identity. -/
def act (relu : Bool) (x : EReal) : EReal := if relu then max x zeroWord else x

/-- ((A·H)·Wᵀ)(p, q), the inner product taken first. -/
def pre {n di dout : Nat} (A : (⟨2, ![n, n]⟩ : Shape).Idx → EReal) (H : (⟨2, ![n, di]⟩ : Shape).Idx → EReal)
    (W : (⟨2, ![dout, di]⟩ : Shape).Idx → EReal) (p : Fin n) (q : Fin dout) : EReal :=
  ∑ c : Fin di, (∑ k : Fin n, A (ix2 p k) * H (ix2 k c)) * W (ix2 q c)

/-- One layer's output array: the activation of ((A·H)·Wᵀ), entry by entry. -/
def layer {n di dout : Nat} (relu : Bool) (A : (⟨2, ![n, n]⟩ : Shape).Idx → EReal)
    (H : (⟨2, ![n, di]⟩ : Shape).Idx → EReal) (W : (⟨2, ![dout, di]⟩ : Shape).Idx → EReal) :
    (⟨2, ![n, dout]⟩ : Shape).Idx → EReal :=
  fun j => act relu (pre A H W (j 0) (j 1))

theorem layer_apply {n di dout : Nat} (relu : Bool) (A : (⟨2, ![n, n]⟩ : Shape).Idx → EReal)
    (H : (⟨2, ![n, di]⟩ : Shape).Idx → EReal) (W : (⟨2, ![dout, di]⟩ : Shape).Idx → EReal) (p : Fin n) (q : Fin dout) :
    layer relu A H W (ix2 p q) = act relu (pre A H W p q) := rfl

/-- A row block's two products. The block holds b rows of A (all n columns); it is multiplied by the whole H and the
    result by the rows of W, each product accumulated into zero, every operand passed through a change of float format
    (the identity on the extended reals). Entry (p, q) of the result is the double sum over the block's row p. -/
theorem blockProducts_apply {b n di dout : Nat}
    (d1 : DotDims ⟨2, ![b, n]⟩ ⟨2, ![n, di]⟩ ⟨2, ![b, di]⟩) (d2 : DotDims ⟨2, ![b, di]⟩ ⟨2, ![dout, di]⟩ ⟨2, ![b, dout]⟩)
    (h1lc : d1.lhsContracting = [1]) (h1rc : d1.rhsContracting = [0]) (h1ln : d1.lhsNonContracting = [0])
    (h1rn : d1.rhsNonContracting = [1]) (h1lb : d1.lhsBatch = []) (h1rb : d1.rhsBatch = [])
    (h2lc : d2.lhsContracting = [1]) (h2rc : d2.rhsContracting = [1]) (h2ln : d2.lhsNonContracting = [0])
    (h2rn : d2.rhsNonContracting = [0]) (h2lb : d2.lhsBatch = []) (h2rb : d2.rhsBatch = [])
    (hb : FTy.bf16.bits < FTy.f32.bits)
    (x0 : FVec Ideal ⟨2, ![b, n]⟩ .f32) (x1 : FVec Ideal ⟨2, ![n, di]⟩ .f32) (x2 : FVec Ideal ⟨2, ![dout, di]⟩ .f32)
    (p : Fin b) (q : Fin dout) :
    matmul d2 none
        (truncf .bf16 (matmul d1 none (truncf .bf16 x0 hb) (truncf .bf16 x1 hb) (constant ⟨2, ![b, di]⟩ .f32 0x00000000#32)) hb)
        (truncf .bf16 x2 hb) (constant ⟨2, ![b, dout]⟩ .f32 0x00000000#32) (ix2 p q)
      = ∑ c : Fin di, (∑ k : Fin n, x0 (ix2 p k) * x1 (ix2 k c)) * x2 (ix2 q c) := by
  refine (Cert.Lib.RowsDot.matmul_zero_apply d2 h2lc h2rc h2ln h2rn h2lb h2rb none _ _ p q).trans ?_
  refine Finset.sum_congr rfl fun c _ => ?_
  rw [truncf_apply, truncf_apply]
  refine congrArg (· * x2 (ix2 q c)) ?_
  refine (Cert.Lib.PlainDot.matmul_zero_apply d1 h1lc h1rc h1ln h1rn h1lb h1rb none _ _ p c).trans ?_
  refine Finset.sum_congr rfl fun k _ => ?_
  rw [truncf_apply, truncf_apply]

end Cert.Gcn

end
-- ==== Proof.Payloads.lean ====
import proofs.«161689_j34187939676601_1_alg».proof.Proof.Gen.KernelIdeal.Skeleton
import proofs.«161689_j34187939676601_1_alg».proof.Proof.Spec
import Idealize.ShloMosaic.Lib.Pipeline.Value

/-!
  What each layer kernel's body stores, read at an entry. A body loads a block of 200 rows of the adjacency A, the whole
  feature array H and the whole weight array W, forms (block·H)·Wᵀ with both products accumulated into zero, and stores
  the maximum of that with zero (layers 1 and 2) or that itself (layer 3). At the ideal values the changes of float
  format are the identity and a shape cast to the same shape moves nothing, so entry (p, q) of the stored block is the
  activation of Σ_c (Σ_k block(p,k)·H(k,c))·W(q,c). The two branches run the same three bodies.
-/

open scoped BigOperators

noncomputable section

namespace Cert.KernelIdeal.Payloads

open Idealize.ShloMosaic Idealize.ShloMosaic.ValueIdx Cert.KernelIdeal Cert.KernelIdeal.Gen Cert.Gcn

/-- The scalar zero the bodies splat is the zero word's value. -/
theorem scalar_zero : (Scalar.ofBits (F := Ideal) .f32 0x00000000#32 : Ideal .f32) = zeroWord := rfl

/-- Layer 1's stored block at (p, q). -/
theorem pay0_apply (x0 : Vec Ideal S200x10000 .f32) (x1 : Vec Ideal S10000x256 .f32) (x2 : Vec Ideal S256x256 .f32)
    (p : Fin 200) (q : Fin 256) :
    k0_pay1 x0 x1 x2 (ix2 p q) = act true (∑ c : Fin 256, (∑ k : Fin 10000, x0 (ix2 p k) * x1 (ix2 k c)) * x2 (ix2 q c)) := by
  unfold k0_pay1
  rw [maximumf_apply, broadcast_apply]
  refine congrArg (fun s => max s zeroWord) ?_
  exact blockProducts_apply dot_S200x10000_S10000x256_S200x256_1_0_0_1_n_n dot_S200x256_S256x256_S200x256_1_1_0_0_n_n
    rfl rfl rfl rfl rfl rfl rfl rfl rfl rfl rfl rfl bitsLt_bf16_f32 x0 x1 x2 p q

/-- Layer 2's stored block at (p, q). -/
theorem pay1_apply (x0 : Vec Ideal S200x10000 .f32) (x1 : Vec Ideal S10000x256 .f32) (x2 : Vec Ideal S128x256 .f32)
    (p : Fin 200) (q : Fin 128) :
    k1_pay1 x0 x1 x2 (ix2 p q) = act true (∑ c : Fin 256, (∑ k : Fin 10000, x0 (ix2 p k) * x1 (ix2 k c)) * x2 (ix2 q c)) := by
  unfold k1_pay1
  rw [maximumf_apply, broadcast_apply, shapeCast_self]
  refine congrArg (fun s => max s zeroWord) ?_
  exact blockProducts_apply dot_S200x10000_S10000x256_S200x256_1_0_0_1_n_n dot_S200x256_S128x256_S200x128_1_1_0_0_n_n
    rfl rfl rfl rfl rfl rfl rfl rfl rfl rfl rfl rfl bitsLt_bf16_f32 x0 x1 x2 p q

/-- Layer 3's stored block at (p, q): no activation. -/
theorem pay2_apply (x0 : Vec Ideal S200x10000 .f32) (x1 : Vec Ideal S10000x128 .f32) (x2 : Vec Ideal S64x128 .f32)
    (p : Fin 200) (q : Fin 64) :
    k2_pay1 x0 x1 x2 (ix2 p q) = act false (∑ c : Fin 128, (∑ k : Fin 10000, x0 (ix2 p k) * x1 (ix2 k c)) * x2 (ix2 q c)) := by
  unfold k2_pay1
  rw [shapeCast_self]
  exact blockProducts_apply dot_S200x10000_S10000x128_S200x128_1_0_0_1_n_n dot_S200x128_S64x128_S200x64_1_1_0_0_n_n
    rfl rfl rfl rfl rfl rfl rfl rfl rfl rfl rfl rfl bitsLt_bf16_f32 x0 x1 x2 p q

/-- The target branch's bodies are the source branch's, layer by layer. -/
theorem pay3_apply (x0 : Vec Ideal S200x10000 .f32) (x1 : Vec Ideal S10000x256 .f32) (x2 : Vec Ideal S256x256 .f32)
    (p : Fin 200) (q : Fin 256) :
    k3_pay1 x0 x1 x2 (ix2 p q) = act true (∑ c : Fin 256, (∑ k : Fin 10000, x0 (ix2 p k) * x1 (ix2 k c)) * x2 (ix2 q c)) :=
  pay0_apply x0 x1 x2 p q

theorem pay4_apply (x0 : Vec Ideal S200x10000 .f32) (x1 : Vec Ideal S10000x256 .f32) (x2 : Vec Ideal S128x256 .f32)
    (p : Fin 200) (q : Fin 128) :
    k4_pay1 x0 x1 x2 (ix2 p q) = act true (∑ c : Fin 256, (∑ k : Fin 10000, x0 (ix2 p k) * x1 (ix2 k c)) * x2 (ix2 q c)) :=
  pay1_apply x0 x1 x2 p q

theorem pay5_apply (x0 : Vec Ideal S200x10000 .f32) (x1 : Vec Ideal S10000x128 .f32) (x2 : Vec Ideal S64x128 .f32)
    (p : Fin 200) (q : Fin 64) :
    k5_pay1 x0 x1 x2 (ix2 p q) = act false (∑ c : Fin 128, (∑ k : Fin 10000, x0 (ix2 p k) * x1 (ix2 k c)) * x2 (ix2 q c)) :=
  pay2_apply x0 x1 x2 p q

end Cert.KernelIdeal.Payloads

end
-- ==== Proof.Region1.lean ====
import proofs.«161689_j34187939676601_1_alg».proof.Proof.Gen.KernelIdeal.Frame
import proofs.«161689_j34187939676601_1_alg».proof.Proof.Payloads
import Idealize.ShloMosaic.Lib.Pipeline.Value

/-!
  Region 1 (source branch, layer 2) as a whole-array function. The region's grid has 50 points; point t stages rows
  200·t … 200·t + 199 of the adjacency (all columns), the whole feature array and the whole weight array, and writes
  back rows 200·t … 200·t + 199 of the output. What the body leaves at point t is therefore the restriction to those
  rows of one function of the arrays as the region finds them — the layer function — and the 50 row blocks tile the
  10000 rows, so after the region the output array is the layer function of the entry contents.
-/

set_option maxRecDepth 16384

open scoped BigOperators

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Gcn

variable (V : (c : Dev nD) → (b : Ref sig .tc) → Buf (Elt Ideal) ((c : Thread nD τ).loc b))

/-- The three arrays the region reads, as it finds them. -/
abbrev arrA (c : Dev nD) : S10000x10000.Idx → EReal := V c main_arg0
abbrev arrH (c : Dev nD) : S10000x256.Idx → EReal := V c main_v0
abbrev arrW (c : Dev nD) : S128x256.Idx → EReal := V c main_arg5

theorem hz : (![0, 0] : Fin 2 → Nat) = fun _ => 0 := funext fun a => by fin_cases a <;> rfl

/-- The block indices over the grid: the adjacency's and the output's row block is the point, every other block index 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 50 := lt_of_lt_of_eq t.isLt (show cfg1.N = 50 from N_1)

/-- The adjacency's block at point t holds rows 200·t … 200·t + 199. -/
theorem blkA_apply (c : Dev nD) (t : Fin cfg1.N) (p : Fin 200) (k : Fin 10000) (h : 200 * t.val + p.val < 10000) :
    (iblk1 V c 0 t : Vec Ideal S200x10000 .f32) (ix2 p k) = arrA V c (ix2 ⟨200 * t.val + p.val, h⟩ k) := by
  obtain ⟨e0, e1, -⟩ := idx_facts t
  unfold iblk1
  rw [View.read_apply]
  show V c main_arg0 _ = V c main_arg0 _
  refine congrArg (V c main_arg0) ?_
  funext a
  apply Fin.ext
  match a with
  | ⟨0, _⟩ => show win1_0.index t (0 : Fin 2) * 200 + 1 * p.val = 200 * t.val + p.val; rw [e0]; omega
  | ⟨1, _⟩ => show win1_0.index t (1 : Fin 2) * 10000 + 1 * k.val = k.val; rw [e1]; omega

/-- The feature window's block is the whole array at every point. -/
theorem blkH_eq (c : Dev nD) (t : Fin cfg1.N) : (iblk1 V c 1 t : Vec Ideal S10000x256 .f32) = arrH V c := by
  obtain ⟨-, -, e0, e1, -⟩ := idx_facts t
  funext x
  unfold iblk1
  rw [View.read_apply]
  show V c main_v0 _ = V c main_v0 _
  refine congrArg (V c main_v0) ?_
  funext a
  apply Fin.ext
  match a with
  | ⟨0, _⟩ => show win1_1.index t (0 : Fin 2) * 10000 + 1 * (x 0).val = (x 0).val; rw [e0]; omega
  | ⟨1, _⟩ => show win1_1.index t (1 : Fin 2) * 256 + 1 * (x 1).val = (x 1).val; rw [e1]; omega

/-- The weight window's block is the whole array at every point. -/
theorem blkW_eq (c : Dev nD) (t : Fin cfg1.N) : (iblk1 V c 2 t : Vec Ideal S128x256 .f32) = arrW V c := by
  obtain ⟨-, -, -, -, e0, e1, -⟩ := idx_facts t
  funext x
  unfold iblk1
  rw [View.read_apply]
  show V c main_arg5 _ = V c main_arg5 _
  refine congrArg (V c main_arg5) ?_
  funext a
  apply Fin.ext
  match a with
  | ⟨0, _⟩ => show win1_2.index t (0 : Fin 2) * 128 + 1 * (x 0).val = (x 0).val; rw [e0]; omega
  | ⟨1, _⟩ => show win1_2.index t (1 : Fin 2) * 256 + 1 * (x 1).val = (x 1).val; rw [e1]; omega

/-- The body's stored block, for blocks that are rows r₀ … r₀ + 199 of A and the whole H and W, is those rows of the layer. -/
theorem stored_rows (x0 : Vec Ideal S200x10000 .f32) (x1 : Vec Ideal S10000x256 .f32) (x2 : Vec Ideal S128x256 .f32)
    (A : S10000x10000.Idx → EReal) (H : S10000x256.Idx → EReal) (W : S128x256.Idx → EReal) (r₀ : Nat)
    (h0 : ∀ (p : Fin 200) (k : Fin 10000) (h : r₀ + p.val < 10000), x0 (ix2 p k) = A (ix2 ⟨r₀ + p.val, h⟩ k))
    (h1 : x1 = H) (h2 : x2 = W) (p : Fin 200) (q : Fin 128) (h : r₀ + p.val < 10000) :
    k1_pay1 x0 x1 x2 (ix2 p q) = layer true A H W (ix2 ⟨r₀ + p.val, h⟩ q) := by
  subst h1 h2
  rw [Payloads.pay1_apply, layer_apply]
  unfold pre
  simp only [h0 _ _ h]

/-- What point t writes back is block t of the layer function of the entry contents. -/
theorem flushed_eq (c : Dev nD) (t : Fin cfg1.N) :
    (dat1 V c).flushed 3 t = ((cfg1.win 3).blk t).view.read (Elt Ideal) (layer true (arrA V c) (arrH V c) (arrW V c)) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x256) hz, View.ld_unit_zero (S := S128x256) hz]
  obtain ⟨-, -, -, -, -, -, e0, e1⟩ := idx_facts t
  have ht := t_lt t
  funext j
  obtain ⟨p, q, rfl⟩ : ∃ (p : Fin 200) (q : Fin 128), j = ix2 p q := ⟨j 0, j 1, eq_ix2 j⟩
  have hp : 200 * t.val + p.val < 10000 := by have := p.isLt; omega
  show k1_pay1 (iblk1 V c 0 t) (iblk1 V c 1 t) (iblk1 V c 2 t) (ix2 p q) = layer true (arrA V c) (arrH V c) (arrW V c) (((cfg1.win 3).blk t).view.emb (ix2 p q))
  have hemb : ((cfg1.win 3).blk t).view.emb (ix2 p q) = (ix2 ⟨200 * t.val + p.val, hp⟩ q : S10000x128.Idx) := by
    funext a
    apply Fin.ext
    match a with
    | ⟨0, _⟩ => show win1_3.index t (0 : Fin 2) * 200 + 1 * p.val = 200 * t.val + p.val; rw [e0]; omega
    | ⟨1, _⟩ => show win1_3.index t (1 : Fin 2) * 128 + 1 * q.val = q.val; rw [e1]; omega
  rw [hemb]
  exact stored_rows (iblk1 V c 0 t) (iblk1 V c 1 t) (iblk1 V c 2 t) (arrA V c) (arrH V c) (arrW V c) (200 * t.val)
    (fun p k h => blkA_apply V c t p k h) (blkH_eq V c t) (blkW_eq V c t) p q hp

/-- Every row of the output is in some point's block: row r is in block r / 200. -/
theorem covered (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 50 := N_1
  let t : Fin cfg1.N := ⟨(i 0).val / 200, by rw [hN]; omega⟩
  obtain ⟨-, -, -, -, -, -, e0, e1⟩ := idx_facts t
  have tv : t.val = (i 0).val / 200 := rfl
  refine ⟨t, flush1_3 t, ?_⟩
  show i ∈ ((View.whole main_v1).slice (win1_3.rect t)).set
  rw [View.set_slice_whole, Rect.mem_set_unit]
  intro a
  match a with
  | ⟨0, _⟩ => show win1_3.index t (0 : Fin 2) * 200 ≤ (i 0).val ∧ (i 0).val < win1_3.index t (0 : Fin 2) * 200 + 200; rw [e0, tv]; omega
  | ⟨1, _⟩ => show win1_3.index t (1 : Fin 2) * 128 ≤ (i 1).val ∧ (i 1).val < win1_3.index t (1 : Fin 2) * 128 + 128; rw [e1]; omega

/-- After the region the output array is the layer function of the arrays as the region found them. -/
theorem final (c : Dev nD) : (dat1 V c).arrAt 3 cfg1.N = layer true (arrA V c) (arrH V c) (arrW V c) :=
  (dat1 V c).arrAt_eq_of_cover 3 (layer true (arrA V c) (arrH V c) (arrW V c)) (fun t _ => flushed_eq V c t) (covered)

end Cert.KernelIdeal.Region1

end
-- ==== Proof.Chain.lean ====
import proofs.«161689_j34187939676601_1_alg».proof.Proof.Gen.KernelIdeal.Frame
import proofs.«161689_j34187939676601_1_alg».proof.Proof.Region0
import proofs.«161689_j34187939676601_1_alg».proof.Proof.Region1
import proofs.«161689_j34187939676601_1_alg».proof.Proof.Region2
import proofs.«161689_j34187939676601_1_alg».proof.Proof.Region3
import proofs.«161689_j34187939676601_1_alg».proof.Proof.Region4
import proofs.«161689_j34187939676601_1_alg».proof.Proof.Region5

/-!
  The six regions chained. Between regions nothing changes a buffer but the region's own output: each region reads an
  adjacency, the previous layer's output (or the input features) and a weight array, all of which still hold what they
  held when written — an argument its launch contents, a layer output the layer function of ITS inputs. Walking the
  segment boundaries in order therefore gives, for the source branch,
      H₁ = layer(A_s, X_s, W₁),  H₂ = layer(A_s, H₁, W₂),  Z_s = layer₃(A_s, H₂, W₃)
  in the first result array, and the same over (A_t, X_t) in the second.
-/

set_option maxRecDepth 16384

noncomputable section

namespace Cert.KernelIdeal.Chain

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg)

/-! ## The arguments as launched, and the layers over them -/

abbrev aS (c : Dev nD) : S10000x10000.Idx → EReal := m ((c : Thread nD τ).loc main_arg0)
abbrev xS (c : Dev nD) : S10000x256.Idx → EReal := m ((c : Thread nD τ).loc main_arg1)
abbrev aT (c : Dev nD) : S10000x10000.Idx → EReal := m ((c : Thread nD τ).loc main_arg2)
abbrev xT (c : Dev nD) : S10000x256.Idx → EReal := m ((c : Thread nD τ).loc main_arg3)
abbrev w1 (c : Dev nD) : S256x256.Idx → EReal := m ((c : Thread nD τ).loc main_arg4)
abbrev w2 (c : Dev nD) : S128x256.Idx → EReal := m ((c : Thread nD τ).loc main_arg5)
abbrev w3 (c : Dev nD) : S64x128.Idx → EReal := m ((c : Thread nD τ).loc main_arg6)

abbrev h1S (c : Dev nD) : S10000x256.Idx → EReal := layer true (aS m c) (xS m c) (w1 m c)
abbrev h2S (c : Dev nD) : S10000x128.Idx → EReal := layer true (aS m c) (h1S m c) (w2 m c)
abbrev zS (c : Dev nD) : S10000x64.Idx → EReal := layer false (aS m c) (h2S m c) (w3 m c)
abbrev h1T (c : Dev nD) : S10000x256.Idx → EReal := layer true (aT m c) (xT m c) (w1 m c)
abbrev h2T (c : Dev nD) : S10000x128.Idx → EReal := layer true (aT m c) (h1T m c) (w2 m c)
abbrev zT (c : Dev nD) : S10000x64.Idx → EReal := layer false (aT m c) (h2T m c) (w3 m c)

/-! ## Source branch -/

/-- After region 0 its output holds H₁ of the source branch. -/
theorem at1_v0 (c : Dev nD) : W1 m ρ c (Proc.devRef .tc main_v0) = h1S m c :=
  (W1_arr m ρ c 3).trans (Region0.final (V0 m ρ) c)

theorem at1_arg0 (c : Dev nD) : W1 m ρ c (Proc.devRef .tc main_arg0) = aS m c :=
  calc W1 m ρ c (Proc.devRef .tc main_arg0)
    _ = W0 m ρ c (Proc.devRef .tc main_arg0) := (W1_arr m ρ c 0).trans (((dat0 (V0 m ρ) c).arrAt_in 0 rfl _).trans (A_eq0 (V0 m ρ) c 0))
    _ = aS m c := rfl

theorem at1_arg5 (c : Dev nD) : W1 m ρ c (Proc.devRef .tc main_arg5) = w2 m c :=
  calc W1 m ρ c (Proc.devRef .tc main_arg5)
    _ = W0 m ρ c (Proc.devRef .tc main_arg5) := W1_of_ne m ρ c main_arg5 (by decide)
    _ = w2 m c := rfl

/-- After region 1 its output holds H₂ of the source branch. -/
theorem at2_v1 (c : Dev nD) : W2 m ρ c (Proc.devRef .tc main_v1) = h2S m c := by
  refine (W2_arr m ρ c 3).trans ((Region1.final (V1 m ρ) c).trans ?_)
  have hA : Region1.arrA (V1 m ρ) c = aS m c := at1_arg0 m ρ c
  have hH : Region1.arrH (V1 m ρ) c = h1S m c := at1_v0 m ρ c
  have hW : Region1.arrW (V1 m ρ) c = w2 m c := at1_arg5 m ρ c
  rw [hA, hH, hW]

theorem at2_arg0 (c : Dev nD) : W2 m ρ c (Proc.devRef .tc main_arg0) = aS m c :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = aS m c := at1_arg0 m ρ c

theorem at2_arg6 (c : Dev nD) : W2 m ρ c (Proc.devRef .tc main_arg6) = w3 m c :=
  calc W2 m ρ c (Proc.devRef .tc main_arg6)
    _ = W1 m ρ c (Proc.devRef .tc main_arg6) := W2_of_ne m ρ c main_arg6 (by decide)
    _ = W0 m ρ c (Proc.devRef .tc main_arg6) := W1_of_ne m ρ c main_arg6 (by decide)
    _ = w3 m c := rfl

/-- After region 2 its output, the first result, holds Z of the source branch. -/
theorem at3_v2 (c : Dev nD) : W3 m ρ c (Proc.devRef .tc main_v2) = zS m c := by
  refine (W3_arr m ρ c 3).trans ((Region2.final (V2 m ρ) c).trans ?_)
  have hA : Region2.arrA (V2 m ρ) c = aS m c := at2_arg0 m ρ c
  have hH : Region2.arrH (V2 m ρ) c = h2S m c := at2_v1 m ρ c
  have hW : Region2.arrW (V2 m ρ) c = w3 m c := at2_arg6 m ρ c
  rw [hA, hH, hW]

/-! ## Target branch -/

theorem at3_arg2 (c : Dev nD) : W3 m ρ c (Proc.devRef .tc main_arg2) = aT m c :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = aT m c := rfl

theorem at3_arg3 (c : Dev nD) : W3 m ρ c (Proc.devRef .tc main_arg3) = xT m c :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = xT m c := rfl

theorem at3_arg4 (c : Dev nD) : W3 m ρ c (Proc.devRef .tc main_arg4) = w1 m c :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := (W1_arr m ρ c 2).trans (((dat0 (V0 m ρ) c).arrAt_in 2 rfl _).trans (A_eq0 (V0 m ρ) c 2))
    _ = w1 m c := rfl

/-- After region 3 its output holds H₁ of the target branch. -/
theorem at4_v3 (c : Dev nD) : W4 m ρ c (Proc.devRef .tc main_v3) = h1T m c := by
  refine (W4_arr m ρ c 3).trans ((Region3.final (V3 m ρ) c).trans ?_)
  have hA : Region3.arrA (V3 m ρ) c = aT m c := at3_arg2 m ρ c
  have hH : Region3.arrH (V3 m ρ) c = xT m c := at3_arg3 m ρ c
  have hW : Region3.arrW (V3 m ρ) c = w1 m c := at3_arg4 m ρ c
  rw [hA, hH, hW]

theorem at4_arg2 (c : Dev nD) : W4 m ρ c (Proc.devRef .tc main_arg2) = aT m c :=
  calc W4 m ρ c (Proc.devRef .tc main_arg2)
    _ = W3 m ρ c (Proc.devRef .tc main_arg2) := (W4_arr m ρ c 0).trans (((dat3 (V3 m ρ) c).arrAt_in 0 rfl _).trans (A_eq3 (V3 m ρ) c 0))
    _ = aT m c := at3_arg2 m ρ c

theorem at4_arg5 (c : Dev nD) : W4 m ρ c (Proc.devRef .tc main_arg5) = w2 m c :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := (W2_arr m ρ c 2).trans (((dat1 (V1 m ρ) c).arrAt_in 2 rfl _).trans (A_eq1 (V1 m ρ) c 2))
    _ = w2 m c := at1_arg5 m ρ c

/-- After region 4 its output holds H₂ of the target branch. -/
theorem at5_v4 (c : Dev nD) : W5 m ρ c (Proc.devRef .tc main_v4) = h2T m c := by
  refine (W5_arr m ρ c 3).trans ((Region4.final (V4 m ρ) c).trans ?_)
  have hA : Region4.arrA (V4 m ρ) c = aT m c := at4_arg2 m ρ c
  have hH : Region4.arrH (V4 m ρ) c = h1T m c := at4_v3 m ρ c
  have hW : Region4.arrW (V4 m ρ) c = w2 m c := at4_arg5 m ρ c
  rw [hA, hH, hW]

theorem at5_arg2 (c : Dev nD) : W5 m ρ c (Proc.devRef .tc main_arg2) = aT m c :=
  calc W5 m ρ c (Proc.devRef .tc main_arg2)
    _ = W4 m ρ c (Proc.devRef .tc main_arg2) := (W5_arr m ρ c 0).trans (((dat4 (V4 m ρ) c).arrAt_in 0 rfl _).trans (A_eq4 (V4 m ρ) c 0))
    _ = aT m c := at4_arg2 m ρ c

theorem at5_arg6 (c : Dev nD) : W5 m ρ c (Proc.devRef .tc main_arg6) = w3 m c :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := (W3_arr m ρ c 2).trans (((dat2 (V2 m ρ) c).arrAt_in 2 rfl _).trans (A_eq2 (V2 m ρ) c 2))
    _ = w3 m c := at2_arg6 m ρ c

/-! ## The two results at the last boundary -/

/-- The second result array ends holding Z of the target branch. -/
theorem result_t (c : Dev nD) : W6 m ρ c (Proc.devRef .tc main_v5) = zT m c := by
  refine (W6_arr m ρ c 3).trans ((Region5.final (V5 m ρ) c).trans ?_)
  have hA : Region5.arrA (V5 m ρ) c = aT m c := at5_arg2 m ρ c
  have hH : Region5.arrH (V5 m ρ) c = h2T m c := at5_v4 m ρ c
  have hW : Region5.arrW (V5 m ρ) c = w3 m c := at5_arg6 m ρ c
  rw [hA, hH, hW]

/-- The first result array is not touched by the target branch's regions, so it ends holding Z of the source branch. -/
theorem result_s (c : Dev nD) : W6 m ρ c (Proc.devRef .tc main_v2) = zS m c :=
  calc W6 m ρ c (Proc.devRef .tc main_v2)
    _ = W5 m ρ c (Proc.devRef .tc main_v2) := W6_of_ne m ρ c main_v2 (by decide)
    _ = W4 m ρ c (Proc.devRef .tc main_v2) := W5_of_ne m ρ c main_v2 (by decide)
    _ = W3 m ρ c (Proc.devRef .tc main_v2) := W4_of_ne m ρ c main_v2 (by decide)
    _ = zS m c := at3_v2 m ρ c

end Cert.KernelIdeal.Chain

end
-- ==== Proof.HostLayer.lean ====
import proofs.«161689_j34187939676601_1_alg».proof.Proof.Spec
import Idealize.ShloMosaic.Lib.Pipeline.Value

/-!
  The host's spelling of one layer. The reference forms A·H by a plain matrix product, transposes the weights
  (dₒ×dᵢ to dᵢ×dₒ), multiplies (A·H) by the transpose with a second plain product, and for layers 1 and 2 takes the
  maximum with a broadcast zero. Entry (p, q) of the second product is Σ_c (A·H)(p,c) · Wᵀ(c,q) with Wᵀ(c,q) = W(q,c):
  the layer function of Spec.lean, term for term.
-/

open scoped BigOperators

noncomputable section

namespace Cert.Gcn

open Idealize.ShloMosaic Idealize.ShloMosaic.ValueIdx

variable {n di dout : Nat}
  (dA : DotDims ⟨2, ![n, n]⟩ ⟨2, ![n, di]⟩ ⟨2, ![n, di]⟩) (dB : DotDims ⟨2, ![n, di]⟩ ⟨2, ![di, dout]⟩ ⟨2, ![n, dout]⟩)

/-- The transposed weights read at (c, q) are the weights at (q, c). -/
theorem transposed_apply (ht : (⟨2, ![dout, di]⟩ : Shape).Transposes [1, 0] ⟨2, ![di, dout]⟩)
    (W : (⟨2, ![dout, di]⟩ : Shape).Idx → EReal) (c : Fin di) (q : Fin dout) :
    transpose ⟨2, ![di, dout]⟩ [1, 0] W ht (ix2 c q) = W (ix2 q c) :=
  transpose_apply [1, 0] W ht (ix2 c q) (ix2 q c) (fun b => by match b with | ⟨0, _⟩ => rfl | ⟨1, _⟩ => rfl)

/-- (A·H)·Wᵀ on the host, without activation, is the layer function. -/
theorem hostLayer_eq
    (hAlc : dA.lhsContracting = [1]) (hArc : dA.rhsContracting = [0]) (hAln : dA.lhsNonContracting = [0])
    (hArn : dA.rhsNonContracting = [1]) (hAlb : dA.lhsBatch = []) (hArb : dA.rhsBatch = [])
    (hBlc : dB.lhsContracting = [1]) (hBrc : dB.rhsContracting = [0]) (hBln : dB.lhsNonContracting = [0])
    (hBrn : dB.rhsNonContracting = [1]) (hBlb : dB.lhsBatch = []) (hBrb : dB.rhsBatch = [])
    (ht : (⟨2, ![dout, di]⟩ : Shape).Transposes [1, 0] ⟨2, ![di, dout]⟩)
    (A : FVec Ideal ⟨2, ![n, n]⟩ .f32) (H : FVec Ideal ⟨2, ![n, di]⟩ .f32) (W : FVec Ideal ⟨2, ![dout, di]⟩ .f32) :
    Host.dotGeneral dB none (Host.dotGeneral dA none A H) (transpose ⟨2, ![di, dout]⟩ [1, 0] W ht) = layer false A H W := by
  funext j
  obtain ⟨p, q, rfl⟩ : ∃ (p : Fin n) (q : Fin dout), j = ix2 p q := ⟨j 0, j 1, eq_ix2 j⟩
  rw [layer_apply]
  show FloatOps.dotGeneral dB none .single (FloatOps.dotGeneral dA none .single A H) (transpose ⟨2, ![di, dout]⟩ [1, 0] W ht) (ix2 p q)
    = pre A H W p q
  refine (Cert.Lib.PlainDot.dotGeneral_apply dB hBlc hBrc hBln hBrn hBlb hBrb none .single _ _ p q).trans ?_
  unfold pre
  refine Finset.sum_congr rfl fun c _ => ?_
  rw [Cert.Lib.PlainDot.dotGeneral_apply dA hAlc hArc hAln hArn hAlb hArb none .single A H p c, transposed_apply ht W c q]

/-- The same under the host's activation, the maximum with a broadcast zero. -/
theorem hostLayerRelu_eq
    (hAlc : dA.lhsContracting = [1]) (hArc : dA.rhsContracting = [0]) (hAln : dA.lhsNonContracting = [0])
    (hArn : dA.rhsNonContracting = [1]) (hAlb : dA.lhsBatch = []) (hArb : dA.rhsBatch = [])
    (hBlc : dB.lhsContracting = [1]) (hBrc : dB.rhsContracting = [0]) (hBln : dB.lhsNonContracting = [0])
    (hBrn : dB.rhsNonContracting = [1]) (hBlb : dB.lhsBatch = []) (hBrb : dB.rhsBatch = [])
    (ht : (⟨2, ![dout, di]⟩ : Shape).Transposes [1, 0] ⟨2, ![di, dout]⟩)
    (hbc : (⟨0, ![]⟩ : Shape).BroadcastsInDim ⟨2, ![n, dout]⟩ ![])
    (A : FVec Ideal ⟨2, ![n, n]⟩ .f32) (H : FVec Ideal ⟨2, ![n, di]⟩ .f32) (W : FVec Ideal ⟨2, ![dout, di]⟩ .f32) :
    maximumf (Host.dotGeneral dB none (Host.dotGeneral dA none A H) (transpose ⟨2, ![di, dout]⟩ [1, 0] W ht))
        (broadcastInDim ⟨2, ![n, dout]⟩ ![] hbc (constant (F := Ideal) ⟨0, ![]⟩ .f32 0x00000000#32))
      = layer true A H W := by
  rw [hostLayer_eq dA dB hAlc hArc hAln hArn hAlb hArb hBlc hBrc hBln hBrn hBlb hBrb ht A H W]
  funext j
  rfl

end Cert.Gcn

end
-- ==== Proof.RefValue.lean ====
import proofs.«161689_j34187939676601_1_alg».proof.Proof.Gen.ReferenceIdeal.Run
import proofs.«161689_j34187939676601_1_alg».proof.Proof.HostLayer

/-!
  The reference's result as three nested layer functions. Each branch of the reference is
      layer₃(A, layer₂(A, layer₁(A, X, W₁), W₂), W₃),
  layers 1 and 2 with the maximum against zero and layer 3 without; each layer is spelt (A·H)·Wᵀ by two plain host
  products and a transpose. Both branches have this one shape, over (A_s, X_s) and over (A_t, X_t).
-/

noncomputable section

namespace Cert.ReferenceIdeal.RefValue

open Idealize.ShloMosaic Cert.ReferenceIdeal Cert.ReferenceIdeal.Gen Cert.Gcn

/-- One branch of the reference, as the run states it, is the three layer functions nested. -/
theorem branch_eq (A : FVec Ideal S10000x10000 .f32) (X : FVec Ideal S10000x256 .f32) (Wa : FVec Ideal S256x256 .f32)
    (Wb : FVec Ideal S128x256 .f32) (Wc : FVec Ideal S64x128 .f32) :
    Host.dotGeneral dot_S10000x128_S128x64_S10000x64_1_0_0_1_n_n none (Host.dotGeneral dot_S10000x10000_S10000x128_S10000x128_1_0_0_1_n_n none A (maximumf (Host.dotGeneral dot_S10000x256_S256x128_S10000x128_1_0_0_1_n_n none (Host.dotGeneral dot_S10000x10000_S10000x256_S10000x256_1_0_0_1_n_n none A (maximumf (Host.dotGeneral dot_S10000x256_S256x256_S10000x256_1_0_0_1_n_n none (Host.dotGeneral dot_S10000x10000_S10000x256_S10000x256_1_0_0_1_n_n none A X) (transpose S256x256 [1, 0] Wa transposes_S256x256_S256x256_1_0)) (broadcastInDim S10000x256 ![] bcast_S_S10000x256 (constant S_ .f32 0x00000000#32)))) (transpose S256x128 [1, 0] Wb transposes_S128x256_S256x128_1_0)) (broadcastInDim S10000x128 ![] bcast_S_S10000x128 (constant S_ .f32 0x00000000#32)))) (transpose S128x64 [1, 0] Wc transposes_S64x128_S128x64_1_0)
      = layer false A (layer true A (layer true A X Wa) Wb) Wc := by
  rw [hostLayerRelu_eq dot_S10000x10000_S10000x256_S10000x256_1_0_0_1_n_n dot_S10000x256_S256x256_S10000x256_1_0_0_1_n_n
        rfl rfl rfl rfl rfl rfl rfl rfl rfl rfl rfl rfl transposes_S256x256_S256x256_1_0 bcast_S_S10000x256 A X Wa,
      hostLayerRelu_eq dot_S10000x10000_S10000x256_S10000x256_1_0_0_1_n_n dot_S10000x256_S256x128_S10000x128_1_0_0_1_n_n
        rfl rfl rfl rfl rfl rfl rfl rfl rfl rfl rfl rfl transposes_S128x256_S256x128_1_0 bcast_S_S10000x128 A (layer true A X Wa) Wb,
      hostLayer_eq dot_S10000x10000_S10000x128_S10000x128_1_0_0_1_n_n dot_S10000x128_S128x64_S10000x64_1_0_0_1_n_n
        rfl rfl rfl rfl rfl rfl rfl rfl rfl rfl rfl rfl transposes_S64x128_S128x64_1_0 A (layer true A (layer true A X Wa) Wb) Wc]

end Cert.ReferenceIdeal.RefValue

end
-- ==== Proof.lean ====
/- The proof of `Cert.Claim`: two three-layer graph-convolution branches, each layer relu?((A·H)·Wᵀ), computed by six
   pipelined kernels (one per layer and branch, 50 row blocks of 200 rows each) against the host's plain products.
   At the ideal values a change of float format is the identity, a matrix product into a zero accumulator and the host's
   dot_general are the same finite sums, and the transposed weights read at (c, q) are the weights at (q, c); so kernel and
   reference compute, entry by entry, the same nested sums in the same order, and no algebraic law beyond that is used
   (in particular nothing needs the inputs to be finite).
   Proof/Spec.lean states one layer as a whole-array function; Proof/Payloads.lean reads each kernel body's stored block
   at an entry; Proof/Region0 … Region5.lean turn each region's 50 write-backs into the layer function of the region's entry
   contents; Proof/Chain.lean walks the six regions from the launch memory to the two results; Proof/KRun.lean is the
   kernel program's run with the results named; Proof/HostLayer.lean and Proof/RefValue.lean read the reference's run as
   the same nested layers. The two frames of the kernel programs are the generated ones, the reference's frame is its
   generated run with the results dropped, and the idealization's ledger is empty. -/
import proofs.«161689_j34187939676601_1_alg».proof.Defs
import proofs.«161689_j34187939676601_1_alg».proof.Proof.Gen.Kernel
import proofs.«161689_j34187939676601_1_alg».proof.Proof.Gen.Kernel.Frame
import proofs.«161689_j34187939676601_1_alg».proof.Proof.Gen.KernelIdeal
import proofs.«161689_j34187939676601_1_alg».proof.Proof.Gen.KernelIdeal.Frame
import proofs.«161689_j34187939676601_1_alg».proof.Proof.Gen.ReferenceIdeal
import proofs.«161689_j34187939676601_1_alg».proof.Proof.Gen.ReferenceIdeal.Run
import proofs.«161689_j34187939676601_1_alg».proof.Proof.Gen.Pre_finite_inputs
import proofs.«161689_j34187939676601_1_alg».proof.Proof.KRun
import proofs.«161689_j34187939676601_1_alg».proof.Proof.Chain
import proofs.«161689_j34187939676601_1_alg».proof.Proof.RefValue
import Idealize.ShloMosaic.Adequacy
import Idealize.ShloMosaic.Init

noncomputable section

namespace Cert.Proof

open Idealize.ShloMosaic Idealize.SL.Sem

/-- The idealized kernel program's run with both result arrays at the nested layer functions of the launch contents. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v2) = Cert.KernelIdeal.Chain.zS m c
        ∧ r.2.mem ((c.tc : Thread Cert.KernelIdeal.nD Cert.KernelIdeal.τ).loc Cert.KernelIdeal.main_v5) = Cert.KernelIdeal.Chain.zT m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun _ h c => ⟨(h c).1.trans (Cert.KernelIdeal.Chain.result_s m ρ c), (h c).2.1.trans (Cert.KernelIdeal.Chain.result_t m ρ c), (h c).2.2⟩)
    (Cert.KernelIdeal.GenRun.run (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with each result at the three nested layer functions of the (agreeing) arguments. -/
theorem algebraic : Cert.algebraic_KernelIdeal_ReferenceIdeal := by
  intro m ρ m' ρ' _ hagree
  refine ⟨fun c => Cert.KernelIdeal.Chain.zS m c, fun c => Cert.KernelIdeal.Chain.zT m c, kernel_run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [a0, a1, a4, a5, a6]
    exact Cert.ReferenceIdeal.RefValue.branch_eq _ _ _ _ _
  · rw [a2, a3, a4, a5, a6]
    exact Cert.ReferenceIdeal.RefValue.branch_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
